-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S250000x3 : Shape := ⟨2, ![250000, 3]⟩
abbrev S4000000x4 : Shape := ⟨2, ![4000000, 4]⟩
abbrev S40x10 : Shape := ⟨2, ![40, 10]⟩
abbrev S40 : Shape := ⟨1, ![40]⟩
abbrev S4x40 : Shape := ⟨2, ![4, 40]⟩
abbrev S4 : Shape := ⟨1, ![4]⟩
abbrev S4000000 : Shape := ⟨1, ![4000000]⟩
abbrev S_ : Shape := ⟨0, ![]⟩

class Facts : Prop where
  bcast_S_S250000x3 : S_.BroadcastsInDim S250000x3 (![] : Fin 0 → Fin S250000x3.rank)
  reducesTo_S250000x3_S_d0_1 : S250000x3.ReducesTo [0, 1] S_
  h_S_ : 0 < S_.numel
  bcast_S_S4000000x4 : S_.BroadcastsInDim S4000000x4 (![] : Fin 0 → Fin S4000000x4.rank)
  reducesTo_S4000000x4_S_d0_1 : S4000000x4.ReducesTo [0, 1] S_
  bcast_S_S40x10 : S_.BroadcastsInDim S40x10 (![] : Fin 0 → Fin S40x10.rank)
  reducesTo_S40x10_S_d0_1 : S40x10.ReducesTo [0, 1] S_
  bcast_S_S40 : S_.BroadcastsInDim S40 (![] : Fin 0 → Fin S40.rank)
  reducesTo_S40_S_d0 : S40.ReducesTo [0] S_
  bcast_S_S4x40 : S_.BroadcastsInDim S4x40 (![] : Fin 0 → Fin S4x40.rank)
  reducesTo_S4x40_S_d0_1 : S4x40.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg4 : FVec F S4x40 .f32) (main_arg5 : FVec F S4 .f32) (main_v13 : IVec S_ 1) (main_v16 : IVec S40 1) : IVec S_ 1 :=
  let main_c_5 : IVec S_ 1 := constantI S_ 1 1#1
  let main_v17 : IVec S_ 1 := (fun x v => Host.reduce IntOp.andi x v reducesTo_S40_S_d0 h_S_) main_v16 main_c_5
  let main_v18 : IVec S_ 1 := andi main_v13 main_v17
  let main_v19 : FVec F S4x40 .f32 := Host.absf main_arg4
  let main_cst_6 : FVec F S_ .f32 := constant S_ .f32 0x7F800000#32
  let main_v20 : FVec F S4x40 .f32 := broadcastInDim S4x40 ![] bcast_S_S4x40 main_cst_6
  let main_v21 : IVec S4x40 1 := cmpf .olt main_v19 main_v20
  let main_c_7 : IVec S_ 1 := constantI S_ 1 1#1
  let main_v22 : IVec S_ 1 := (fun x v => Host.reduce IntOp.andi x v reducesTo_S4x40_S_d0_1 h_S_) main_v21 main_c_7
  let main_v23 : IVec S_ 1 := andi main_v18 main_v22
  let main_v24 : FVec F S4 .f32 := Host.absf main_arg5
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  main_v28

def fn {F : FTy → Type} [FloatOps F] (main_arg0 : FVec F S250000x3 .f32) (main_arg1 : FVec F S4000000x4 .f32) (main_arg2 : FVec F S40x10 .f32) (main_arg3 : FVec F S40 .f32) (main_arg4 : FVec F S4x40 .f32) (main_arg5 : FVec F S4 .f32) (main_arg6 : IVec S4000000 32) (main_arg7 : IVec S4000000 32) : IVec S_ 1 :=
  let main_v0 : FVec F S250000x3 .f32 := Host.absf main_arg0
  let main_cst : FVec F S_ .f32 := constant S_ .f32 0x7F800000#32
  let main_v1 : FVec F S250000x3 .f32 := broadcastInDim S250000x3 ![] bcast_S_S250000x3 main_cst
  let main_v2 : IVec S250000x3 1 := cmpf .olt main_v0 main_v1
  let main_c : IVec S_ 1 := constantI S_ 1 1#1
  let main_v3 : IVec S_ 1 := (fun x v => Host.reduce IntOp.andi x v reducesTo_S250000x3_S_d0_1 h_S_) main_v2 main_c
  let main_v4 : FVec F S4000000x4 .f32 := Host.absf main_arg1
  let main_cst_0 : FVec F S_ .f32 := constant S_ .f32 0x7F800000#32
  let main_v5 : FVec F S4000000x4 .f32 := broadcastInDim S4000000x4 ![] bcast_S_S4000000x4 main_cst_0
  let main_v6 : IVec S4000000x4 1 := cmpf .olt main_v4 main_v5
  let main_c_1 : IVec S_ 1 := constantI S_ 1 1#1
  let main_v7 : IVec S_ 1 := (fun x v => Host.reduce IntOp.andi x v reducesTo_S4000000x4_S_d0_1 h_S_) main_v6 main_c_1
  let main_v8 : IVec S_ 1 := andi main_v3 main_v7
  let main_v9 : FVec F S40x10 .f32 := Host.absf main_arg2
  let main_cst_2 : FVec F S_ .f32 := constant S_ .f32 0x7F800000#32
  let main_v10 : FVec F S40x10 .f32 := broadcastInDim S40x10 ![] bcast_S_S40x10 main_cst_2
  let main_v11 : IVec S40x10 1 := cmpf .olt main_v9 main_v10
  let main_c_3 : IVec S_ 1 := constantI S_ 1 1#1
  let main_v12 : IVec S_ 1 := (fun x v => Host.reduce IntOp.andi x v reducesTo_S40x10_S_d0_1 h_S_) main_v11 main_c_3
  let main_v13 : IVec S_ 1 := andi main_v8 main_v12
  let main_v14 : FVec F S40 .f32 := Host.absf main_arg3
  let main_cst_4 : FVec F S_ .f32 := constant S_ .f32 0x7F800000#32
  let main_v15 : FVec F S40 .f32 := broadcastInDim S40 ![] bcast_S_S40 main_cst_4
  let main_v16 : IVec S40 1 := cmpf .olt main_v14 main_v15
  fn_part1 (F := F) main_arg4 main_arg5 main_v13 main_v16
-- ==== Kernel.lean ====
abbrev S250000x3 : Shape := ⟨2, ![250000, 3]⟩
abbrev S4000000x4 : Shape := ⟨2, ![4000000, 4]⟩
abbrev S40x10 : Shape := ⟨2, ![40, 10]⟩
abbrev S40 : Shape := ⟨1, ![40]⟩
abbrev S4x40 : Shape := ⟨2, ![4, 40]⟩
abbrev S4 : Shape := ⟨1, ![4]⟩
abbrev S4000000 : Shape := ⟨1, ![4000000]⟩
abbrev S_ : Shape := ⟨0, ![]⟩
abbrev S4000000x1 : Shape := ⟨2, ![4000000, 1]⟩
abbrev S4000000x3 : Shape := ⟨2, ![4000000, 3]⟩
abbrev S10x40 : Shape := ⟨2, ![10, 40]⟩
abbrev S40x4 : Shape := ⟨2, ![40, 4]⟩
abbrev S1x40 : Shape := ⟨2, ![1, 40]⟩
abbrev S1x4 : Shape := ⟨2, ![1, 4]⟩
abbrev S4000000x7 : Shape := ⟨2, ![4000000, 7]⟩
abbrev S4000x3 : Shape := ⟨2, ![4000, 3]⟩
abbrev S4000x4 : Shape := ⟨2, ![4000, 4]⟩
abbrev S4000x7 : Shape := ⟨2, ![4000, 7]⟩
abbrev S4000x10 : Shape := ⟨2, ![4000, 10]⟩
abbrev S4000x40 : Shape := ⟨2, ![4000, 40]⟩

abbrev nBuf : Space → Nat
  | .hbm => 32
  | .vmem => 14
  | .smem => 0
  | _ => 0

abbrev bufTy : (tb : Table) → Fin (tcTables nBuf tb) → BufTy
  | .hbm, ⟨0, _⟩ => ⟨S250000x3, .f32⟩
  | .hbm, ⟨1, _⟩ => ⟨S4000000x4, .f32⟩
  | .hbm, ⟨2, _⟩ => ⟨S40x10, .f32⟩
  | .hbm, ⟨3, _⟩ => ⟨S40, .f32⟩
  | .hbm, ⟨4, _⟩ => ⟨S4x40, .f32⟩
  | .hbm, ⟨5, _⟩ => ⟨S4, .f32⟩
  | .hbm, ⟨6, _⟩ => ⟨S4000000, .i32⟩
  | .hbm, ⟨7, _⟩ => ⟨S4000000, .i32⟩
  | .hbm, ⟨8, _⟩ => ⟨S_, .i32⟩
  | .hbm, ⟨9, _⟩ => ⟨S4000000, .i32⟩
  | .hbm, ⟨10, _⟩ => ⟨S4000000, .i1⟩
  | .hbm, ⟨11, _⟩ => ⟨S_, .i32⟩
  | .hbm, ⟨12, _⟩ => ⟨S4000000, .i32⟩
  | .hbm, ⟨13, _⟩ => ⟨S4000000, .i32⟩
  | .hbm, ⟨14, _⟩ => ⟨S4000000, .i32⟩
  | .hbm, ⟨15, _⟩ => ⟨S4000000x1, .i32⟩
  | .hbm, ⟨16, _⟩ => ⟨S4000000x3, .f32⟩
  | .hbm, ⟨17, _⟩ => ⟨S_, .i32⟩
  | .hbm, ⟨18, _⟩ => ⟨S4000000, .i32⟩
  | .hbm, ⟨19, _⟩ => ⟨S4000000, .i1⟩
  | .hbm, ⟨20, _⟩ => ⟨S_, .i32⟩
  | .hbm, ⟨21, _⟩ => ⟨S4000000, .i32⟩
  | .hbm, ⟨22, _⟩ => ⟨S4000000, .i32⟩
  | .hbm, ⟨23, _⟩ => ⟨S4000000, .i32⟩
  | .hbm, ⟨24, _⟩ => ⟨S4000000x1, .i32⟩
  | .hbm, ⟨25, _⟩ => ⟨S4000000x3, .f32⟩
  | .hbm, ⟨26, _⟩ => ⟨S10x40, .f32⟩
  | .hbm, ⟨27, _⟩ => ⟨S40x4, .f32⟩
  | .hbm, ⟨28, _⟩ => ⟨S1x40, .f32⟩
  | .hbm, ⟨29, _⟩ => ⟨S1x4, .f32⟩
  | .hbm, ⟨30, _⟩ => ⟨S4000000x4, .f32⟩
  | .hbm, ⟨31, _⟩ => ⟨S4000000x7, .f32⟩
  | .local _ .vmem, ⟨0, _⟩ => ⟨S4000x3, .f32⟩
  | .local _ .vmem, ⟨1, _⟩ => ⟨S4000x3, .f32⟩
  | .local _ .vmem, ⟨2, _⟩ => ⟨S4000x3, .f32⟩
  | .local _ .vmem, ⟨3, _⟩ => ⟨S4000x3, .f32⟩
  | .local _ .vmem, ⟨4, _⟩ => ⟨S4000x4, .f32⟩
  | .local _ .vmem, ⟨5, _⟩ => ⟨S4000x4, .f32⟩
  | .local _ .vmem, ⟨6, _⟩ => ⟨S10x40, .f32⟩
  | .local _ .vmem, ⟨7, _⟩ => ⟨S1x40, .f32⟩
  | .local _ .vmem, ⟨8, _⟩ => ⟨S40x4, .f32⟩
  | .local _ .vmem, ⟨9, _⟩ => ⟨S1x4, .f32⟩
  | .local _ .vmem, ⟨10, _⟩ => ⟨S4000x4, .f32⟩
  | .local _ .vmem, ⟨11, _⟩ => ⟨S4000x4, .f32⟩
  | .local _ .vmem, ⟨12, _⟩ => ⟨S4000x7, .f32⟩
  | .local _ .vmem, ⟨13, _⟩ => ⟨S4000x7, .f32⟩
  | _, _ => ⟨S250000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18_0 : Ref sig .tc := ⟨.hbm, 30, rfl⟩
abbrev main_v18_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![1000], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S10x40 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x40 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S40x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4000x7 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S4000000 : S_.BroadcastsInDim S4000000 (![] : Fin 0 → Fin S4000000.rank)
  bcast_S4000000_S4000000x1_0 : S4000000.BroadcastsInDim S4000000x1 (![0] : Fin 1 → Fin S4000000x1.rank)
  transposes_S40x10_S10x40_1_0 : S40x10.Transposes [1, 0] S10x40
  transposes_S4x40_S40x4_1_0 : S4x40.Transposes [1, 0] S40x4
  shapeCasts_S40_S1x40 : S40.ShapeCasts S1x40
  shapeCasts_S4_S1x4 : S4.ShapeCasts S1x4
  inb_S4000x3_S4000x3_0_0 : ∀ a, (![0, 0] : Fin 2 → Nat) a + S4000x3.size a ≤ S4000x3.size a
  h_S4000x3 : 0 < S4000x3.numel
  shapeCasts_S4000x3_S4000x3 : S4000x3.ShapeCasts S4000x3
  inb_S4000x4_S4000x4_0_0 : ∀ a, (![0, 0] : Fin 2 → Nat) a + S4000x4.size a ≤ S4000x4.size a
  h_S4000x4 : 0 < S4000x4.numel
  concatenates_S4000x3_S4000x3_S4000x4_S4000x10_d1 : Shape.Concatenates [S4000x3, S4000x3, S4000x4] S4000x10 1
  bitsLt_bf16_f32 : FTy.bits .bf16 < FTy.bits .f32
  inb_S10x40_S10x40_0_0 : ∀ a, (![0, 0] : Fin 2 → Nat) a + S10x40.size a ≤ S10x40.size a
  h_S10x40 : 0 < S10x40.numel
  shapeCasts_S10x40_S10x40 : S10x40.ShapeCasts S10x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4000x40 : S1x40.Broadcasts S4000x40
  inb_S40x4_S40x4_0_0 : ∀ a, (![0, 0] : Fin 2 → Nat) a + S40x4.size a ≤ S40x4.size a
  h_S40x4 : 0 < S40x4.numel
  shapeCasts_S40x4_S40x4 : S40x4.ShapeCasts S40x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S4000x4 : S1x4.Broadcasts S4000x4
  concatenates_S4000x3_S4000x4_S4000x7_d1 : Shape.Concatenates [S4000x3, S4000x4] S4000x7 1
  inb_S4000x7_S4000x7_0_0 : ∀ a, (![0, 0] : Fin 2 → Nat) a + S4000x7.size a ≤ S4000x7.size a
  h_S4000x7 : 0 < S4000x7.numel
  gather_S250000x3_S4000000x1_S4000000x3_1_0_n_n_0_1_13_wf : GatherDims.WF S250000x3 S4000000x1 S4000000x3 [1] [0] [] [0] [] 1 ![1, 3]
  dot_S4000x10_S10x40_S4000x40_1_0_0_1_n_n_wf : DotDims.WF S4000x10 S10x40 S4000x40 [1] [0] [0] [1] [] []
  dot_S4000x40_S40x4_S4000x4_1_0_0_1_n_n_wf : DotDims.WF S4000x40 S40x4 S4000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x3.size a ≤ S4000000x3.size a
  hwx0_0 : ∀ i : grid0.Coords, EltTy.bits .f32 = 32 ∨ (Rect.block (s := S4000000x3) S4000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x3.size a ≤ S4000000x3.size a
  hwx0_1 : ∀ i : grid0.Coords, EltTy.bits .f32 = 32 ∨ (Rect.block (s := S4000000x3) S4000x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x4.size a ≤ S4000000x4.size a
  hwx0_2 : ∀ i : grid0.Coords, EltTy.bits .f32 = 32 ∨ (Rect.block (s := S4000000x4) S4000x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x40.size a ≤ S10x40.size a
  hwx0_3 : ∀ i : grid0.Coords, EltTy.bits .f32 = 32 ∨ (Rect.block (s := S10x40) S10x40.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x40.size a ≤ S1x40.size a
  hwx0_4 : ∀ i : grid0.Coords, EltTy.bits .f32 = 32 ∨ (Rect.block (s := S1x40) S1x40.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S40x4.size a ≤ S40x4.size a
  hwx0_5 : ∀ i : grid0.Coords, EltTy.bits .f32 = 32 ∨ (Rect.block (s := S40x4) S40x4.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4.size a ≤ S1x4.size a
  hwx0_6 : ∀ i : grid0.Coords, EltTy.bits .f32 = 32 ∨ (Rect.block (s := S1x4) S1x4.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x4.size a ≤ S4000000x4.size a
  hwx0_7 : ∀ i : grid0.Coords, EltTy.bits .f32 = 32 ∨ (Rect.block (s := S4000000x4) S4000x4.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x7.size a ≤ S4000000x7.size a
  hwx0_8 : ∀ i : grid0.Coords, EltTy.bits .f32 = 32 ∨ (Rect.block (s := S4000000x7) S4000x7.size (cc0_transform_8 i) (hinb0_8 i)).WholeWords (EltTy.packing .f32)

variable [Facts₀]

def gather_S250000x3_S4000000x1_S4000000x3_1_0_n_n_0_1_13 : GatherDims S250000x3 S4000000x1 S4000000x3 where
  offsetDims := [1]
  collapsedSliceDims := [0]
  operandBatchingDims := []
  startIndicesBatchingDims := []
  startIndexMap := [0]
  indexVectorDim := 1
  sliceSizes := ![1, 3]
  wf := gather_S250000x3_S4000000x1_S4000000x3_1_0_n_n_0_1_13_wf
def dot_S4000x10_S10x40_S4000x40_1_0_0_1_n_n : DotDims S4000x10 S10x40 S4000x40 where
  lhsContracting := [1]
  rhsContracting := [0]
  lhsNonContracting := [0]
  rhsNonContracting := [1]
  lhsBatch := []
  rhsBatch := []
  wf := dot_S4000x10_S10x40_S4000x40_1_0_0_1_n_n_wf
def dot_S4000x40_S40x4_S4000x4_1_0_0_1_n_n : DotDims S4000x40 S40x4 S4000x4 where
  lhsContracting := [1]
  rhsContracting := [0]
  lhsNonContracting := [0]
  rhsNonContracting := [1]
  lhsBatch := []
  rhsBatch := []
  wf := dot_S4000x40_S40x4_S4000x4_1_0_0_1_n_n_wf

abbrev win0_0 : Pipeline.Window sig grid0 :=
  Pipeline.Window.ofSpec (Memref.whole main_v6) S4000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4000x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S10x40.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x40.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S40x4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x4.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18_0) S4000x4.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v18_1) S4000x7.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S250000x3 : Shape := ⟨2, ![250000, 3]⟩
abbrev S4000000x4 : Shape := ⟨2, ![4000000, 4]⟩
abbrev S40x10 : Shape := ⟨2, ![40, 10]⟩
abbrev S40 : Shape := ⟨1, ![40]⟩
abbrev S4x40 : Shape := ⟨2, ![4, 40]⟩
abbrev S4 : Shape := ⟨1, ![4]⟩
abbrev S4000000 : Shape := ⟨1, ![4000000]⟩
abbrev S_ : Shape := ⟨0, ![]⟩
abbrev S4000000x1 : Shape := ⟨2, ![4000000, 1]⟩
abbrev S4000000x3 : Shape := ⟨2, ![4000000, 3]⟩
abbrev S4000000x10 : Shape := ⟨2, ![4000000, 10]⟩
abbrev S10x40 : Shape := ⟨2, ![10, 40]⟩
abbrev S4000000x40 : Shape := ⟨2, ![4000000, 40]⟩
abbrev S1x40 : Shape := ⟨2, ![1, 40]⟩
abbrev S40x4 : Shape := ⟨2, ![40, 4]⟩
abbrev S1x4 : Shape := ⟨2, ![1, 4]⟩
abbrev S4000000x7 : Shape := ⟨2, ![4000000, 7]⟩

abbrev nBuf : Space → Nat
  | .hbm => 41
  | .vmem => 0
  | .smem => 0
  | _ => 0

abbrev bufTy : (tb : Table) → Fin (tcTables nBuf tb) → BufTy
  | .hbm, ⟨0, _⟩ => ⟨S250000x3, .f32⟩
  | .hbm, ⟨1, _⟩ => ⟨S4000000x4, .f32⟩
  | .hbm, ⟨2, _⟩ => ⟨S40x10, .f32⟩
  | .hbm, ⟨3, _⟩ => ⟨S40, .f32⟩
  | .hbm, ⟨4, _⟩ => ⟨S4x40, .f32⟩
  | .hbm, ⟨5, _⟩ => ⟨S4, .f32⟩
  | .hbm, ⟨6, _⟩ => ⟨S4000000, .i32⟩
  | .hbm, ⟨7, _⟩ => ⟨S4000000, .i32⟩
  | .hbm, ⟨8, _⟩ => ⟨S_, .i32⟩
  | .hbm, ⟨9, _⟩ => ⟨S4000000, .i32⟩
  | .hbm, ⟨10, _⟩ => ⟨S4000000, .i1⟩
  | .hbm, ⟨11, _⟩ => ⟨S_, .i32⟩
  | .hbm, ⟨12, _⟩ => ⟨S4000000, .i32⟩
  | .hbm, ⟨13, _⟩ => ⟨S4000000, .i32⟩
  | .hbm, ⟨14, _⟩ => ⟨S4000000, .i32⟩
  | .hbm, ⟨15, _⟩ => ⟨S4000000x1, .i32⟩
  | .hbm, ⟨16, _⟩ => ⟨S4000000x3, .f32⟩
  | .hbm, ⟨17, _⟩ => ⟨S_, .i32⟩
  | .hbm, ⟨18, _⟩ => ⟨S4000000, .i32⟩
  | .hbm, ⟨19, _⟩ => ⟨S4000000, .i1⟩
  | .hbm, ⟨20, _⟩ => ⟨S_, .i32⟩
  | .hbm, ⟨21, _⟩ => ⟨S4000000, .i32⟩
  | .hbm, ⟨22, _⟩ => ⟨S4000000, .i32⟩
  | .hbm, ⟨23, _⟩ => ⟨S4000000, .i32⟩
  | .hbm, ⟨24, _⟩ => ⟨S4000000x1, .i32⟩
  | .hbm, ⟨25, _⟩ => ⟨S4000000x3, .f32⟩
  | .hbm, ⟨26, _⟩ => ⟨S4000000x10, .f32⟩
  | .hbm, ⟨27, _⟩ => ⟨S10x40, .f32⟩
  | .hbm, ⟨28, _⟩ => ⟨S4000000x40, .f32⟩
  | .hbm, ⟨29, _⟩ => ⟨S1x40, .f32⟩
  | .hbm, ⟨30, _⟩ => ⟨S4000000x40, .f32⟩
  | .hbm, ⟨31, _⟩ => ⟨S4000000x40, .f32⟩
  | .hbm, ⟨32, _⟩ => ⟨S_, .f32⟩
  | .hbm, ⟨33, _⟩ => ⟨S4000000x40, .f32⟩
  | .hbm, ⟨34, _⟩ => ⟨S4000000x40, .f32⟩
  | .hbm, ⟨35, _⟩ => ⟨S40x4, .f32⟩
  | .hbm, ⟨36, _⟩ => ⟨S4000000x4, .f32⟩
  | .hbm, ⟨37, _⟩ => ⟨S1x4, .f32⟩
  | .hbm, ⟨38, _⟩ => ⟨S4000000x4, .f32⟩
  | .hbm, ⟨39, _⟩ => ⟨S4000000x4, .f32⟩
  | .hbm, ⟨40, _⟩ => ⟨S4000000x7, .f32⟩
  | _, _ => ⟨S250000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_cst : Ref sig .tc := ⟨.hbm, 32, rfl⟩
abbrev main_call0_v0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]

class Facts₀ : Prop where
  bcast_S_S4000000 : S_.BroadcastsInDim S4000000 (![] : Fin 0 → Fin S4000000.rank)
  bcast_S4000000_S4000000x1_0 : S4000000.BroadcastsInDim S4000000x1 (![0] : Fin 1 → Fin S4000000x1.rank)
  concatenates_S4000000x3_S4000000x3_S4000000x4_S4000000x10_d1 : Shape.Concatenates [S4000000x3, S4000000x3, S4000000x4] S4000000x10 1
  transposes_S40x10_S10x40_1_0 : S40x10.Transposes [1, 0] S10x40
  bcast_S40_S1x40_1 : S40.BroadcastsInDim S1x40 (![1] : Fin 1 → Fin S1x40.rank)
  bcast_S1x40_S4000000x40_0_1 : S1x40.BroadcastsInDim S4000000x40 (![0, 1] : Fin 2 → Fin S4000000x40.rank)
  bcast_S_S4000000x40 : S_.BroadcastsInDim S4000000x40 (![] : Fin 0 → Fin S4000000x40.rank)
  transposes_S4x40_S40x4_1_0 : S4x40.Transposes [1, 0] S40x4
  bcast_S4_S1x4_1 : S4.BroadcastsInDim S1x4 (![1] : Fin 1 → Fin S1x4.rank)
  bcast_S1x4_S4000000x4_0_1 : S1x4.BroadcastsInDim S4000000x4 (![0, 1] : Fin 2 → Fin S4000000x4.rank)
  concatenates_S4000000x3_S4000000x4_S4000000x7_d1 : Shape.Concatenates [S4000000x3, S4000000x4] S4000000x7 1
  gather_S250000x3_S4000000x1_S4000000x3_1_0_n_n_0_1_13_wf : GatherDims.WF S250000x3 S4000000x1 S4000000x3 [1] [0] [] [0] [] 1 ![1, 3]
  dot_S4000000x10_S10x40_S4000000x40_1_0_0_1_n_n_wf : DotDims.WF S4000000x10 S10x40 S4000000x40 [1] [0] [0] [1] [] []
  dot_S4000000x40_S40x4_S4000000x4_1_0_0_1_n_n_wf : DotDims.WF S4000000x40 S40x4 S4000000x4 [1] [0] [0] [1] [] []

variable [Facts₀]

def gather_S250000x3_S4000000x1_S4000000x3_1_0_n_n_0_1_13 : GatherDims S250000x3 S4000000x1 S4000000x3 where
  offsetDims := [1]
  collapsedSliceDims := [0]
  operandBatchingDims := []
  startIndicesBatchingDims := []
  startIndexMap := [0]
  indexVectorDim := 1
  sliceSizes := ![1, 3]
  wf := gather_S250000x3_S4000000x1_S4000000x3_1_0_n_n_0_1_13_wf
def dot_S4000000x10_S10x40_S4000000x40_1_0_0_1_n_n : DotDims S4000000x10 S10x40 S4000000x40 where
  lhsContracting := [1]
  rhsContracting := [0]
  lhsNonContracting := [0]
  rhsNonContracting := [1]
  lhsBatch := []
  rhsBatch := []
  wf := dot_S4000000x10_S10x40_S4000000x40_1_0_0_1_n_n_wf
def dot_S4000000x40_S40x4_S4000000x4_1_0_0_1_n_n : DotDims S4000000x40 S40x4 S4000000x4 where
  lhsContracting := [1]
  rhsContracting := [0]
  lhsNonContracting := [0]
  rhsNonContracting := [1]
  lhsBatch := []
  rhsBatch := []
  wf := dot_S4000000x40_S40x4_S4000000x4_1_0_0_1_n_n_wf

class Facts : Prop extends Facts₀ where

variable [Facts]
-- ==== Proof.EdgeMlp.lean ====
/-
  One edge's message network, row by row.

  An edge carries ten features: the three coordinates of its source node, the three of its destination node and
  its own four.  A hidden layer of forty units takes the features' products with a 10 × 40 weight matrix, adds a
  bias and clamps below at zero; an output layer of four units takes the hidden values' products with a 40 × 4
  matrix and adds a bias.  The first result is those four numbers per edge; the second joins the source node's three
  coordinates with them, seven numbers per edge.

  Everything is stated for ONE edge over plain coordinate functions (`feat`, `hiddenUnit`, `edgeOut`, `joined`), and
  lifted to arrays with any number `n` of rows (`wOut`, `eTilde`): each row of a result depends on the same row of
  the three per-edge arrays and on the weights only.  The two lemmas at the end read a concatenation along the column
  axis at an entry, for any `n`.
-/
import Idealize.ShloMosaic.Lib.ValueIdx
import Idealize.ShloMosaic.Lib.Pipeline.Value
import Idealize.ShloMosaic.PureOps.Ideal.Laws

noncomputable section

namespace Cert.EdgeMlp

open Idealize.ShloMosaic Idealize.ShloMosaic.ValueIdx

/-- Row `r` of a two-axis array, as a function of the column. -/
def row {n k : ℕ} (x : (⟨2, ![n, k]⟩ : Shape).Idx → EReal) (r : Fin n) : Fin k → EReal := fun a => x (ix2 r a)

/-- An edge's ten features: columns 0–2 the source node's coordinates, 3–5 the destination node's, 6–9 the edge's own. -/
def feat (a b : Fin 3 → EReal) (c : Fin 4 → EReal) (l : Fin 10) : EReal :=
  if h : l.val < 3 then a ⟨l.val, h⟩
  else if h' : l.val < 6 then b ⟨l.val - 3, by omega⟩
  else c ⟨l.val - 6, by have := l.isLt; omega⟩

/-- Hidden unit `j`: the features against column `j` of the first weight matrix, plus the bias, clamped below at zero. -/
def hiddenUnit (a b : Fin 3 → EReal) (c : Fin 4 → EReal) (W1 : (⟨2, ![10, 40]⟩ : Shape).Idx → EReal) (b1 : Fin 40 → EReal)
    (j : Fin 40) : EReal :=
  max ((∑ l : Fin 10, feat a b c l * W1 (ix2 l j)) + b1 j) (Ideal.ofBits .f32 0x00000000#32)

/-- Output unit `o`: the hidden units against column `o` of the second weight matrix, plus the bias. -/
def edgeOut (a b : Fin 3 → EReal) (c : Fin 4 → EReal) (W1 : (⟨2, ![10, 40]⟩ : Shape).Idx → EReal) (b1 : Fin 40 → EReal)
    (W2 : (⟨2, ![40, 4]⟩ : Shape).Idx → EReal) (b2 : Fin 4 → EReal) (o : Fin 4) : EReal :=
  (∑ j : Fin 40, hiddenUnit a b c W1 b1 j * W2 (ix2 j o)) + b2 o

/-- Seven numbers: three given ones, then four more. -/
def joined (a : Fin 3 → EReal) (y : Fin 4 → EReal) (q : Fin 7) : EReal :=
  if h : q.val < 3 then a ⟨q.val, h⟩ else y ⟨q.val - 3, by have := q.isLt; omega⟩

/-- The first result for `n` edges: entry (r, o) is output unit `o` of edge `r`. -/
def wOut {n : ℕ} (xs xd : (⟨2, ![n, 3]⟩ : Shape).Idx → EReal) (w : (⟨2, ![n, 4]⟩ : Shape).Idx → EReal)
    (W1 : (⟨2, ![10, 40]⟩ : Shape).Idx → EReal) (b1 : Fin 40 → EReal) (W2 : (⟨2, ![40, 4]⟩ : Shape).Idx → EReal)
    (b2 : Fin 4 → EReal) : (⟨2, ![n, 4]⟩ : Shape).Idx → EReal :=
  fun i => edgeOut (row xs (i 0)) (row xd (i 0)) (row w (i 0)) W1 b1 W2 b2 (i 1)

/-- The second result for `n` edges: row `r` is edge `r`'s source coordinates joined with its four outputs. -/
def eTilde {n : ℕ} (xs xd : (⟨2, ![n, 3]⟩ : Shape).Idx → EReal) (w : (⟨2, ![n, 4]⟩ : Shape).Idx → EReal)
    (W1 : (⟨2, ![10, 40]⟩ : Shape).Idx → EReal) (b1 : Fin 40 → EReal) (W2 : (⟨2, ![40, 4]⟩ : Shape).Idx → EReal)
    (b2 : Fin 4 → EReal) : (⟨2, ![n, 7]⟩ : Shape).Idx → EReal :=
  fun i => joined (row xs (i 0)) (edgeOut (row xs (i 0)) (row xd (i 0)) (row w (i 0)) W1 b1 W2 b2) (i 1)

/-- Three arrays of 3, 3 and 4 columns joined along the column axis, read at entry (r, l): feature `l` of row `r`. -/
theorem concat3_apply {n : ℕ} (xs xd : (⟨2, ![n, 3]⟩ : Shape).Idx → EReal) (w : (⟨2, ![n, 4]⟩ : Shape).Idx → EReal)
    (h : Shape.Concatenates [(⟨2, ![n, 3]⟩ : Shape), ⟨2, ![n, 3]⟩, ⟨2, ![n, 4]⟩] ⟨2, ![n, 10]⟩ 1) (r : Fin n) (l : Fin 10) :
    concatenate (⟨2, ![n, 10]⟩ : Shape) 1 [⟨⟨2, ![n, 3]⟩, xs⟩, ⟨⟨2, ![n, 3]⟩, xd⟩, ⟨⟨2, ![n, 4]⟩, w⟩] h (ix2 r l)
      = feat (row xs r) (row xd r) (row w r) l := by
  unfold feat row
  by_cases h1 : l.val < 3
  · rw [dif_pos h1]
    refine concatenate_apply_piece (t := ⟨2, ![n, 10]⟩) (1 : Fin 2) [⟨⟨2, ![n, 3]⟩, xs⟩, ⟨⟨2, ![n, 3]⟩, xd⟩, ⟨⟨2, ![n, 4]⟩, w⟩] h (ix2 r l) 0 (by simp) ⟨2, ![n, 3]⟩ xs rfl rfl 0 rfl
      (ix2 r ⟨l.val, h1⟩) ?_ ?_
    · intro b hb
      match b with
      | ⟨0, _⟩ => rfl
      | ⟨1, _⟩ => exact absurd rfl hb
    · show 0 + l.val = l.val
      omega
  · rw [dif_neg h1]
    by_cases h2 : l.val < 6
    · rw [dif_pos h2]
      refine concatenate_apply_piece (t := ⟨2, ![n, 10]⟩) (1 : Fin 2) [⟨⟨2, ![n, 3]⟩, xs⟩, ⟨⟨2, ![n, 3]⟩, xd⟩, ⟨⟨2, ![n, 4]⟩, w⟩] h (ix2 r l) 1 (by simp) ⟨2, ![n, 3]⟩ xd rfl rfl 3 rfl
        (ix2 r ⟨l.val - 3, by omega⟩) ?_ ?_
      · intro b hb
        match b with
        | ⟨0, _⟩ => rfl
        | ⟨1, _⟩ => exact absurd rfl hb
      · show 3 + (l.val - 3) = l.val
        omega
    · rw [dif_neg h2]
      refine concatenate_apply_piece (t := ⟨2, ![n, 10]⟩) (1 : Fin 2) [⟨⟨2, ![n, 3]⟩, xs⟩, ⟨⟨2, ![n, 3]⟩, xd⟩, ⟨⟨2, ![n, 4]⟩, w⟩] h (ix2 r l) 2 (by simp) ⟨2, ![n, 4]⟩ w rfl rfl 6 rfl
        (ix2 r ⟨l.val - 6, by have := l.isLt; omega⟩) ?_ ?_
      · intro b hb
        match b with
        | ⟨0, _⟩ => rfl
        | ⟨1, _⟩ => exact absurd rfl hb
      · show 6 + (l.val - 6) = l.val
        omega

/-- Two arrays of 3 and 4 columns joined along the column axis, read at entry (r, q). -/
theorem concat2_apply {n : ℕ} (xs : (⟨2, ![n, 3]⟩ : Shape).Idx → EReal) (y : (⟨2, ![n, 4]⟩ : Shape).Idx → EReal)
    (h : Shape.Concatenates [(⟨2, ![n, 3]⟩ : Shape), ⟨2, ![n, 4]⟩] ⟨2, ![n, 7]⟩ 1) (r : Fin n) (q : Fin 7) :
    concatenate (⟨2, ![n, 7]⟩ : Shape) 1 [⟨⟨2, ![n, 3]⟩, xs⟩, ⟨⟨2, ![n, 4]⟩, y⟩] h (ix2 r q)
      = joined (row xs r) (row y r) q := by
  unfold joined row
  by_cases h1 : q.val < 3
  · rw [dif_pos h1]
    refine concatenate_apply_piece (t := ⟨2, ![n, 7]⟩) (1 : Fin 2) [⟨⟨2, ![n, 3]⟩, xs⟩, ⟨⟨2, ![n, 4]⟩, y⟩] h (ix2 r q) 0 (by simp) ⟨2, ![n, 3]⟩ xs rfl rfl 0 rfl
      (ix2 r ⟨q.val, h1⟩) ?_ ?_
    · intro b hb
      match b with
      | ⟨0, _⟩ => rfl
      | ⟨1, _⟩ => exact absurd rfl hb
    · show 0 + q.val = q.val
      omega
  · rw [dif_neg h1]
    refine concatenate_apply_piece (t := ⟨2, ![n, 7]⟩) (1 : Fin 2) [⟨⟨2, ![n, 3]⟩, xs⟩, ⟨⟨2, ![n, 4]⟩, y⟩] h (ix2 r q) 1 (by simp) ⟨2, ![n, 4]⟩ y rfl rfl 3 rfl
      (ix2 r ⟨q.val - 3, by have := q.isLt; omega⟩) ?_ ?_
    · intro b hb
      match b with
      | ⟨0, _⟩ => rfl
      | ⟨1, _⟩ => exact absurd rfl hb
    · show 3 + (q.val - 3) = q.val
      omega

end Cert.EdgeMlp

end
-- ==== Proof.LibMatmulPlain.lean ====
/-
  A matrix product with no batch axis, rows × contraction by contraction × columns, read at one entry on the extended
  reals: into a zero accumulator it is the plain sum over the contraction coordinate of the products of the two
  operands' entries.  Stated once for any extents and any dimension-number record of that pattern, for the vector
  unit's product and for the host's.
-/
import Idealize.ShloMosaic.Lib.ValueIdx
import Idealize.ShloMosaic.PureOps.Ideal.Laws

noncomputable section

namespace Cert.Gcn

open Idealize.ShloMosaic Idealize.ShloMosaic.ValueIdx

variable {M K N : ℕ}

/-- The dimension numbers contract the left operand's columns with the right operand's rows and keep the left rows
    and the right columns, with no batch axis. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

/-- The sum over the one-axis contraction index is the sum over its coordinate, the left operand read at
    (row, l) and the right at (l, column). -/
theorem plain_sum {φ₁ φ₂ : FTy} (D : DotDims ⟨2, ![M, K]⟩ ⟨2, ![K, N]⟩ ⟨2, ![M, N]⟩) (hD : IsPlain D)
    (A : FVec Ideal ⟨2, ![M, K]⟩ φ₁) (B : FVec Ideal ⟨2, ![K, N]⟩ φ₂) (p : Fin M) (q : Fin N) :
    ∑ k : D.contr.Idx, A (D.lhsIdx (ix2 p q) k) * B (D.rhsIdx (ix2 p q) k) = ∑ l : Fin K, A (ix2 p l) * B (ix2 l q) := by
  obtain ⟨lc, rc, ln, rn, lb, rb, wf⟩ := D
  obtain ⟨h1, h2, h3, h4, h5, h6⟩ := hD
  simp only at h1 h2 h3 h4 h5 h6
  subst h1 h2 h3 h4 h5 h6
  set D : DotDims ⟨2, ![M, K]⟩ ⟨2, ![K, N]⟩ ⟨2, ![M, N]⟩ := ⟨[1], [0], [0], [1], [], [], wf⟩ with hDdef
  rw [← Equiv.sum_comp (contrEquiv1 D K rfl rfl).symm]
  refine Finset.sum_congr rfl fun l _ => ?_
  have hk := contrEquiv1_symm_val D K rfl rfl l
  have l0 : ∀ (i : (⟨2, ![M, N]⟩ : Shape).Idx) (k : D.contr.Idx), (D.lhsIdx i k 0).val = (i 0).val := by
    intro i k
    unfold DotDims.lhsIdx
    rw [dif_neg (show ¬(0 : Fin 2) ∈ ([] : List (Fin 2)) by decide), dif_pos (show (0 : Fin 2) ∈ ([0] : List (Fin 2)) by decide)]
    rfl
  have l1 : ∀ (i : (⟨2, ![M, N]⟩ : Shape).Idx) (k : D.contr.Idx), (D.lhsIdx i k 1).val = (k ⟨0, Nat.one_pos⟩).val :=
    fun i k => D.lhsIdx_val_of_single rfl i k
  have r0 : ∀ (i : (⟨2, ![M, N]⟩ : Shape).Idx) (k : D.contr.Idx), (D.rhsIdx i k 0).val = (k ⟨0, Nat.one_pos⟩).val :=
    fun i k => D.rhsIdx_val_of_single rfl i k
  have r1 : ∀ (i : (⟨2, ![M, N]⟩ : Shape).Idx) (k : D.contr.Idx), (D.rhsIdx i k 1).val = (i 1).val := by
    intro i k
    unfold DotDims.rhsIdx
    rw [dif_neg (show ¬(1 : Fin 2) ∈ ([] : List (Fin 2)) by decide), dif_pos (show (1 : Fin 2) ∈ ([1] : List (Fin 2)) by decide)]
    rfl
  have el : D.lhsIdx (ix2 p q) ((contrEquiv1 D K rfl rfl).symm l) = ix2 p l := funext fun a => Fin.ext (by
    match a with
    | ⟨0, _⟩ => exact l0 _ _
    | ⟨1, _⟩ => exact (l1 _ _).trans hk)
  have er : D.rhsIdx (ix2 p q) ((contrEquiv1 D K rfl rfl).symm l) = ix2 l q := funext fun a => Fin.ext (by
    match a with
    | ⟨0, _⟩ => exact (r0 _ _).trans hk
    | ⟨1, _⟩ => exact r1 _ _)
  rw [el, er]

/-- The vector unit's product into the zero accumulator, at entry (p, q). -/
theorem matmul_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    matmul D prec A B (constant (F := Ideal) ⟨2, ![M, N]⟩ .f32 0x00000000#32) (ix2 p q) = ∑ l : Fin K, A (ix2 p l) * B (ix2 l q) := by
  simp only [matmul]
  rw [Ideal.matmul_constant_zero_apply]
  exact plain_sum D hD A B p q

/-- The host's product, at entry (p, q). -/
theorem dotGeneral_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    Host.dotGeneral D prec A B (ix2 p q) = ∑ l : Fin K, A (ix2 p l) * B (ix2 l q) := by
  simp only [Host.dotGeneral]
  rw [Ideal.dotGeneral_apply]
  exact plain_sum D hD A B p q

end Cert.Gcn

end
-- ==== Proof.BlockValue.lean ====
/-
  What the kernel body stores, read at one entry.

  The body works on a block of 4000 edges: it loads the block's source rows, destination rows and edge rows and the
  four parameter arrays, joins the three per-edge blocks into 4000 × 10 features, multiplies by the 10 × 40 matrix into
  a zero accumulator, adds the bias row, clamps at zero, multiplies by the 40 × 4 matrix into a zero accumulator and adds
  the second bias row.  On the extended reals the narrowing to the product's input format is the identity, so entry
  (r, o) of the first stored value is output unit `o` of the edge in row `r` of the block, and entry (r, q) of the
  second stored value is entry `q` of that edge's source coordinates joined with its four outputs.
-/
import proofs.«143633_j81226421502274_1_alg».proof.Proof.Gen.KernelIdeal.Skeleton
import proofs.«143633_j81226421502274_1_alg».proof.Proof.EdgeMlp
import proofs.«143633_j81226421502274_1_alg».proof.Proof.LibMatmulPlain

noncomputable section

namespace Cert.KernelIdeal.BlockValue

open Cert.KernelIdeal Cert.KernelIdeal.Gen Idealize.ShloMosaic Idealize.ShloMosaic.ValueIdx
open Cert.EdgeMlp Cert.Gcn

/-- The hidden layer of the block, as the body computes it: features times the first matrix, plus the bias row
    broadcast down the rows, clamped below at zero. -/
def hiddenBlock (x0 x1 : Vec Ideal S4000x3 .f32) (x2 : Vec Ideal S4000x4 .f32) (x3 : Vec Ideal S10x40 .f32)
    (x4 : Vec Ideal S1x40 .f32) : FVec Ideal S4000x40 .f32 :=
  maximumf
    (addf
      (matmul dot_S4000x10_S10x40_S4000x40_1_0_0_1_n_n none
        (truncf .bf16 (concatenate S4000x10 1 [⟨S4000x3, x0⟩, ⟨S4000x3, x1⟩, ⟨S4000x4, x2⟩]
          concatenates_S4000x3_S4000x3_S4000x4_S4000x10_d1) bitsLt_bf16_f32)
        (truncf .bf16 x3 bitsLt_bf16_f32) (constant S4000x40 .f32 0x00000000#32))
      (broadcastTo S4000x40 x4 broadcasts_S1x40_S4000x40))
    (broadcast S4000x40 (Scalar.ofBits .f32 0x00000000#32))

/-- Entry (r, j) of the block's hidden layer is hidden unit `j` of the edge in row `r`. -/
theorem hiddenBlock_apply (x0 x1 : Vec Ideal S4000x3 .f32) (x2 : Vec Ideal S4000x4 .f32) (x3 : Vec Ideal S10x40 .f32)
    (x4 : Vec Ideal S1x40 .f32) (r : Fin 4000) (j : Fin 40) :
    hiddenBlock x0 x1 x2 x3 x4 (ix2 r j)
      = hiddenUnit (row x0 r) (row x1 r) (row x2 r) x3 (fun j => x4 (ix2 0 j)) j := by
  unfold hiddenBlock hiddenUnit
  rw [maximumf_apply, addf_apply, broadcast_apply]
  refine congrArg₂ max (congrArg₂ (· + ·) ?_ ?_) rfl
  · refine (matmul_plain_apply dot_S4000x10_S10x40_S4000x40_1_0_0_1_n_n ⟨rfl, rfl, rfl, rfl, rfl, rfl⟩ none _ _ r j).trans ?_
    refine Finset.sum_congr rfl fun l _ => ?_
    rw [truncf_apply, truncf_apply]
    exact congrArg (· * x3 (ix2 l j)) (concat3_apply (n := 4000) x0 x1 x2 _ r l)
  · refine broadcastTo_apply x4 broadcasts_S1x40_S4000x40 (ix2 r j) (ix2 0 j) ?_
    intro a
    match a with
    | ⟨0, _⟩ => rfl
    | ⟨1, _⟩ => rfl

/-- The body's first stored value is the second product of the hidden layer, plus the second bias row. -/
theorem pay2_eq (x0 x1 : Vec Ideal S4000x3 .f32) (x2 : Vec Ideal S4000x4 .f32) (x3 : Vec Ideal S10x40 .f32)
    (x4 : Vec Ideal S1x40 .f32) (x5 : Vec Ideal S40x4 .f32) (x6 : Vec Ideal S1x4 .f32) :
    k0_pay2 (F := Ideal) x0 x1 x2 x3 x4 x5 x6
      = addf (matmul dot_S4000x40_S40x4_S4000x4_1_0_0_1_n_n none (truncf .bf16 (hiddenBlock x0 x1 x2 x3 x4) bitsLt_bf16_f32)
          (truncf .bf16 x5 bitsLt_bf16_f32) (constant S4000x4 .f32 0x00000000#32))
        (broadcastTo S4000x4 x6 broadcasts_S1x4_S4000x4) := by
  unfold k0_pay2 k0_pay1 hiddenBlock
  simp only [shapeCast_self]
  rw [shapeCast_self x0, shapeCast_self x1]

/-- Entry (r, o) of the first stored value: output unit `o` of the edge in row `r` of the block. -/
theorem pay2_apply (x0 x1 : Vec Ideal S4000x3 .f32) (x2 : Vec Ideal S4000x4 .f32) (x3 : Vec Ideal S10x40 .f32)
    (x4 : Vec Ideal S1x40 .f32) (x5 : Vec Ideal S40x4 .f32) (x6 : Vec Ideal S1x4 .f32) (r : Fin 4000) (o : Fin 4) :
    k0_pay2 (F := Ideal) x0 x1 x2 x3 x4 x5 x6 (ix2 r o)
      = edgeOut (row x0 r) (row x1 r) (row x2 r) x3 (fun j => x4 (ix2 0 j)) x5 (fun q => x6 (ix2 0 q)) o := by
  rw [pay2_eq, addf_apply]
  unfold edgeOut
  refine congrArg₂ (· + ·) ?_ ?_
  · refine (matmul_plain_apply dot_S4000x40_S40x4_S4000x4_1_0_0_1_n_n ⟨rfl, rfl, rfl, rfl, rfl, rfl⟩ none _ _ r o).trans ?_
    refine Finset.sum_congr rfl fun j _ => ?_
    rw [truncf_apply, truncf_apply, hiddenBlock_apply]
  · refine broadcastTo_apply x6 broadcasts_S1x4_S4000x4 (ix2 r o) (ix2 0 o) ?_
    intro a
    match a with
    | ⟨0, _⟩ => rfl
    | ⟨1, _⟩ => rfl

/-- Entry (r, q) of the second stored value: the source row's three coordinates, then the edge's four outputs. -/
theorem pay3_apply (x0 x1 : Vec Ideal S4000x3 .f32) (x2 : Vec Ideal S4000x4 .f32) (x3 : Vec Ideal S10x40 .f32)
    (x4 : Vec Ideal S1x40 .f32) (x5 : Vec Ideal S40x4 .f32) (x6 : Vec Ideal S1x4 .f32) (r : Fin 4000) (q : Fin 7) :
    k0_pay3 (F := Ideal) x0 x1 x2 x3 x4 x5 x6 (ix2 r q)
      = joined (row x0 r)
          (edgeOut (row x0 r) (row x1 r) (row x2 r) x3 (fun j => x4 (ix2 0 j)) x5 (fun q => x6 (ix2 0 q))) q := by
  unfold k0_pay3 k0_pay1
  simp only [shapeCast_self]
  refine (concat2_apply (n := 4000) x0 (k0_pay2 (F := Ideal) x0 x1 x2 x3 x4 x5 x6) _ r q).trans ?_
  refine congrArg (fun y => joined (row x0 r) y q) (funext fun o => ?_)
  exact pay2_apply x0 x1 x2 x3 x4 x5 x6 r o

end Cert.KernelIdeal.BlockValue

end
-- ==== Proof.ArrayValue.lean ====
/-
  From blocks to arrays: what the two result arrays hold after the kernel's run.

  The grid has 1000 points; point `t` works on edges 4000·t … 4000·t + 3999.  Its source, destination and edge blocks are
  rows 4000·t + r of the three per-edge arrays as the region finds them, the four parameter blocks are the parameter
  arrays whole at every point, and it writes back rows 4000·t + r of both results.  So what point `t` writes back is
  block `t` of ONE function of the region-entry arrays — `wOut` for the first result, `eTilde` for the second, read
  at `n` = 4 000 000 rows —, the 1000 blocks tile each result array, and each array ends holding that function.
-/
import proofs.«143633_j81226421502274_1_alg».proof.Proof.Gen.KernelIdeal.Value
import proofs.«143633_j81226421502274_1_alg».proof.Proof.BlockValue

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)
open Cert.EdgeMlp Cert.KernelIdeal.BlockValue

variable (m : (ℓ : Loc nD τ sig) → Buf (Elt Ideal) ℓ) (ρ : Dev nD → PrngReg)

/-! ## The arrays as the region finds them, under their literal types -/

/-- The gathered source rows. -/
abbrev xsArr (c : Dev nD) : Vec Ideal S4000000x3 .f32 := V m c main_v6
/-- The gathered destination rows. -/
abbrev xdArr (c : Dev nD) : Vec Ideal S4000000x3 .f32 := V m c main_v13
/-- The edge features. -/
abbrev wArr (c : Dev nD) : Vec Ideal S4000000x4 .f32 := V m c main_arg1
/-- The first weight matrix, 10 × 40. -/
abbrev w1Arr (c : Dev nD) : Vec Ideal S10x40 .f32 := V m c main_v14
/-- The first bias as a 1 × 40 row. -/
abbrev b1Arr (c : Dev nD) : Vec Ideal S1x40 .f32 := V m c main_v16
/-- The second weight matrix, 40 × 4. -/
abbrev w2Arr (c : Dev nD) : Vec Ideal S40x4 .f32 := V m c main_v15
/-- The second bias as a 1 × 4 row. -/
abbrev b2Arr (c : Dev nD) : Vec Ideal S1x4 .f32 := V m c main_v17

/-- The first result array, as one function of the region-entry arrays. -/
def wOutArr (c : Dev nD) : Vec Ideal S4000000x4 .f32 :=
  wOut (n := 4000000) (xsArr m c) (xdArr m c) (wArr m c) (w1Arr m c) (fun j => b1Arr m c (ix2 0 j)) (w2Arr m c)
    (fun q => b2Arr m c (ix2 0 q))

/-- The second result array, as one function of the region-entry arrays. -/
def eTildeArr (c : Dev nD) : Vec Ideal S4000000x7 .f32 :=
  eTilde (n := 4000000) (xsArr m c) (xdArr m c) (wArr m c) (w1Arr m c) (fun j => b1Arr m c (ix2 0 j)) (w2Arr m c)
    (fun q => b2Arr m c (ix2 0 q))

/-! ## The index maps over the grid -/

theorem zeros2 : (![0, 0] : Fin 2 → Nat) = fun _ => 0 := funext fun a => by fin_cases a <;> rfl

/-- The printed index maps, decided over the 1000 points: a per-edge window's block index is (t, 0), a parameter
    window's (0, 0). -/
theorem idx_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- The edge that row `r` of point `t`'s blocks is. -/
def edgeOf (t : Fin cfg0.N) (r : Fin 4000) : Fin 4000000 :=
  ⟨t.val * 4000 + r.val, by have ht : t.val < 1000 := t.isLt; have hr := r.isLt; omega⟩

/-! ## Each input block, read where its point puts it -/

theorem blk0 (c : Dev nD) (t : Fin cfg0.N) (r : Fin 4000) :
    row (n := 4000) (iblk m c 0 t) r = row (n := 4000000) (xsArr m c) (edgeOf t r) := by
  obtain ⟨e0, e1, -⟩ := idx_facts t
  funext a
  show xsArr m c (((cfg0.win 0).blk t).view.emb (ix2 r a)) = xsArr m c (ix2 (edgeOf t r) a)
  refine congrArg (xsArr m c) (funext fun d => Fin.ext ?_)
  match d with
  | ⟨0, _⟩ => show win0_0.index t (0 : Fin 2) * 4000 + 1 * r.val = t.val * 4000 + r.val; rw [e0]; omega
  | ⟨1, _⟩ => show win0_0.index t (1 : Fin 2) * 3 + 1 * a.val = a.val; rw [e1]; omega

theorem blk1 (c : Dev nD) (t : Fin cfg0.N) (r : Fin 4000) :
    row (n := 4000) (iblk m c 1 t) r = row (n := 4000000) (xdArr m c) (edgeOf t r) := by
  obtain ⟨-, -, e0, e1, -⟩ := idx_facts t
  funext a
  show xdArr m c (((cfg0.win 1).blk t).view.emb (ix2 r a)) = xdArr m c (ix2 (edgeOf t r) a)
  refine congrArg (xdArr m c) (funext fun d => Fin.ext ?_)
  match d with
  | ⟨0, _⟩ => show win0_1.index t (0 : Fin 2) * 4000 + 1 * r.val = t.val * 4000 + r.val; rw [e0]; omega
  | ⟨1, _⟩ => show win0_1.index t (1 : Fin 2) * 3 + 1 * a.val = a.val; rw [e1]; omega

theorem blk2 (c : Dev nD) (t : Fin cfg0.N) (r : Fin 4000) :
    row (n := 4000) (iblk m c 2 t) r = row (n := 4000000) (wArr m c) (edgeOf t r) := by
  obtain ⟨-, -, -, -, e0, e1, -⟩ := idx_facts t
  funext a
  show wArr m c (((cfg0.win 2).blk t).view.emb (ix2 r a)) = wArr m c (ix2 (edgeOf t r) a)
  refine congrArg (wArr m c) (funext fun d => Fin.ext ?_)
  match d with
  | ⟨0, _⟩ => show win0_2.index t (0 : Fin 2) * 4000 + 1 * r.val = t.val * 4000 + r.val; rw [e0]; omega
  | ⟨1, _⟩ => show win0_2.index t (1 : Fin 2) * 4 + 1 * a.val = a.val; rw [e1]; omega

theorem blk3 (c : Dev nD) (t : Fin cfg0.N) : (iblk m c 3 t : Vec Ideal S10x40 .f32) = w1Arr m c := by
  obtain ⟨-, -, -, -, -, -, e0, e1, -⟩ := idx_facts t
  funext y
  show w1Arr m c (((cfg0.win 3).blk t).view.emb y) = w1Arr m c y
  refine congrArg (w1Arr m c) (funext fun d => Fin.ext ?_)
  match d with
  | ⟨0, _⟩ => show win0_3.index t (0 : Fin 2) * 10 + 1 * (y 0).val = (y 0).val; rw [e0]; omega
  | ⟨1, _⟩ => show win0_3.index t (1 : Fin 2) * 40 + 1 * (y 1).val = (y 1).val; rw [e1]; omega

theorem blk4 (c : Dev nD) (t : Fin cfg0.N) : (iblk m c 4 t : Vec Ideal S1x40 .f32) = b1Arr m c := by
  obtain ⟨-, -, -, -, -, -, -, -, e0, e1, -⟩ := idx_facts t
  funext y
  show b1Arr m c (((cfg0.win 4).blk t).view.emb y) = b1Arr m c y
  refine congrArg (b1Arr m c) (funext fun d => Fin.ext ?_)
  match d with
  | ⟨0, _⟩ => show win0_4.index t (0 : Fin 2) * 1 + 1 * (y 0).val = (y 0).val; rw [e0]; omega
  | ⟨1, _⟩ => show win0_4.index t (1 : Fin 2) * 40 + 1 * (y 1).val = (y 1).val; rw [e1]; omega

theorem blk5 (c : Dev nD) (t : Fin cfg0.N) : (iblk m c 5 t : Vec Ideal S40x4 .f32) = w2Arr m c := by
  obtain ⟨-, -, -, -, -, -, -, -, -, -, e0, e1, -⟩ := idx_facts t
  funext y
  show w2Arr m c (((cfg0.win 5).blk t).view.emb y) = w2Arr m c y
  refine congrArg (w2Arr m c) (funext fun d => Fin.ext ?_)
  match d with
  | ⟨0, _⟩ => show win0_5.index t (0 : Fin 2) * 40 + 1 * (y 0).val = (y 0).val; rw [e0]; omega
  | ⟨1, _⟩ => show win0_5.index t (1 : Fin 2) * 4 + 1 * (y 1).val = (y 1).val; rw [e1]; omega

theorem blk6 (c : Dev nD) (t : Fin cfg0.N) : (iblk m c 6 t : Vec Ideal S1x4 .f32) = b2Arr m c := by
  obtain ⟨-, -, -, -, -, -, -, -, -, -, -, -, e0, e1, -⟩ := idx_facts t
  funext y
  show b2Arr m c (((cfg0.win 6).blk t).view.emb y) = b2Arr m c y
  refine congrArg (b2Arr m c) (funext fun d => Fin.ext ?_)
  match d with
  | ⟨0, _⟩ => show win0_6.index t (0 : Fin 2) * 1 + 1 * (y 0).val = (y 0).val; rw [e0]; omega
  | ⟨1, _⟩ => show win0_6.index t (1 : Fin 2) * 4 + 1 * (y 1).val = (y 1).val; rw [e1]; omega

/-- Output unit `o` of the edge in row `r` of point `t`'s blocks is output unit `o` of edge 4000·t + r of the arrays. -/
theorem edgeOut_blk (c : Dev nD) (t : Fin cfg0.N) (r : Fin 4000) :
    edgeOut (row (n := 4000) (iblk m c 0 t) r) (row (n := 4000) (iblk m c 1 t) r) (row (n := 4000) (iblk m c 2 t) r)
        (iblk m c 3 t) (fun j => (iblk m c 4 t : Vec Ideal S1x40 .f32) (ix2 0 j)) (iblk m c 5 t)
        (fun q => (iblk m c 6 t : Vec Ideal S1x4 .f32) (ix2 0 q))
      = edgeOut (row (n := 4000000) (xsArr m c) (edgeOf t r)) (row (n := 4000000) (xdArr m c) (edgeOf t r))
          (row (n := 4000000) (wArr m c) (edgeOf t r)) (w1Arr m c) (fun j => b1Arr m c (ix2 0 j)) (w2Arr m c)
          (fun q => b2Arr m c (ix2 0 q)) := by
  rw [blk0 m c t r, blk1 m c t r, blk2 m c t r, blk3 m c t, blk4 m c t, blk5 m c t, blk6 m c t]

/-! ## The first result -/

/-- What point `t` writes back to the first result is block `t` of `wOutArr`. -/
theorem flushed7_eq (c : Dev nD) (t : Fin cfg0.N) :
    (dats m 0 c).flushed 7 t = ((cfg0.win 7).blk t).view.read (Elt Ideal) (wOutArr m c) := by
  rw [Value.flushed7]
  unfold out0_7
  rw [View.canon_unit_zero zeros2]
  simp only [View.ld_unit_zero (S := S4000x3) zeros2, View.ld_unit_zero (S := S4000x4) zeros2,
    View.ld_unit_zero (S := S10x40) zeros2, View.ld_unit_zero (S := S1x40) zeros2,
    View.ld_unit_zero (S := S40x4) zeros2, View.ld_unit_zero (S := S1x4) zeros2]
  obtain ⟨-, -, -, -, -, -, -, -, -, -, -, -, -, -, e0, e1, -⟩ := idx_facts t
  refine funext fun (y : S4000x4.Idx) => ?_
  obtain ⟨r, o, rfl⟩ : ∃ (r : Fin 4000) (o : Fin 4), y = ix2 r o := ⟨y 0, y 1, eq_ix2 (n0 := 4000) (n1 := 4) y⟩
  show k0_pay2 (F := Ideal) (iblk m c 0 t) (iblk m c 1 t) (iblk m c 2 t) (iblk m c 3 t) (iblk m c 4 t) (iblk m c 5 t)
      (iblk m c 6 t) (ix2 r o) = wOutArr m c (((cfg0.win 7).blk t).view.emb (ix2 r o))
  have he : ((cfg0.win 7).blk t).view.emb (ix2 r o) = (ix2 (edgeOf t r) o : S4000000x4.Idx) := by
    funext d
    apply Fin.ext
    match d with
    | ⟨0, _⟩ => show win0_7.index t (0 : Fin 2) * 4000 + 1 * r.val = t.val * 4000 + r.val; rw [e0]; omega
    | ⟨1, _⟩ => show win0_7.index t (1 : Fin 2) * 4 + 1 * o.val = o.val; rw [e1]; omega
  rw [he]
  refine (pay2_apply (iblk m c 0 t) (iblk m c 1 t) (iblk m c 2 t) (iblk m c 3 t) (iblk m c 4 t) (iblk m c 5 t)
    (iblk m c 6 t) r o).trans ?_
  exact congrFun (edgeOut_blk m c t r) o

/-- An entry of the first result array is in point `t`'s block iff each coordinate is in the block's range. -/
theorem mem_blk7 (t : Fin cfg0.N) (i : S4000000x4.Idx) :
    i ∈ ((cfg0.win 7).blk t).view.set ↔ ∀ a : Fin 2, win0_7.index t a * S4000x4.size a ≤ (i a).val
      ∧ (i a).val < win0_7.index t a * S4000x4.size a + S4000x4.size a := by
  show i ∈ ((View.whole main_v18_0).slice (win0_7.rect t)).set ↔ _
  rw [View.set_slice_whole, Rect.mem_set_unit]
  exact Iff.rfl

/-- Every entry of the first result array is in the block of the point its row belongs to. -/
theorem cover7 (i : S4000000x4.Idx) :
    ∃ t : Fin cfg0.N, (cfg0.win 7).flush t = true ∧ i ∈ ((cfg0.win 7).blk t).view.set := by
  have hi0 : (i 0).val < 4000000 := (i 0).isLt
  have hi1 : (i 1).val < 4 := (i 1).isLt
  have hq : (i 0).val / 4000 < 1000 := by omega
  obtain ⟨-, -, -, -, -, -, -, -, -, -, -, -, -, -, e0, e1, -⟩ := idx_facts ⟨(i 0).val / 4000, hq⟩
  refine ⟨⟨(i 0).val / 4000, hq⟩, flush0_7 _, ?_⟩
  rw [mem_blk7]
  intro a
  match a with
  | ⟨0, _⟩ =>
    show win0_7.index ⟨(i 0).val / 4000, hq⟩ (0 : Fin 2) * 4000 ≤ (i 0).val
      ∧ (i 0).val < win0_7.index ⟨(i 0).val / 4000, hq⟩ (0 : Fin 2) * 4000 + 4000
    rw [e0]
    show (i 0).val / 4000 * 4000 ≤ (i 0).val ∧ (i 0).val < (i 0).val / 4000 * 4000 + 4000
    omega
  | ⟨1, _⟩ =>
    show win0_7.index ⟨(i 0).val / 4000, hq⟩ (1 : Fin 2) * 4 ≤ (i 1).val
      ∧ (i 1).val < win0_7.index ⟨(i 0).val / 4000, hq⟩ (1 : Fin 2) * 4 + 4
    rw [e1]
    omega

/-- The first result array after the run. -/
theorem final7 (c : Dev nD) : (dats m 0 c).arrAt 7 cfg0.N = wOutArr m c :=
  (dats m 0 c).arrAt_eq_of_cover 7 (wOutArr m c) (fun t _ => flushed7_eq m c t) cover7

/-! ## The second result -/

/-- What point `t` writes back to the second result is block `t` of `eTildeArr`. -/
theorem flushed8_eq (c : Dev nD) (t : Fin cfg0.N) :
    (dats m 0 c).flushed 8 t = ((cfg0.win 8).blk t).view.read (Elt Ideal) (eTildeArr m c) := by
  rw [Value.flushed8]
  unfold out0_8
  rw [View.canon_unit_zero zeros2]
  simp only [View.ld_unit_zero (S := S4000x3) zeros2, View.ld_unit_zero (S := S4000x4) zeros2,
    View.ld_unit_zero (S := S10x40) zeros2, View.ld_unit_zero (S := S1x40) zeros2,
    View.ld_unit_zero (S := S40x4) zeros2, View.ld_unit_zero (S := S1x4) zeros2]
  obtain ⟨-, -, -, -, -, -, -, -, -, -, -, -, -, -, -, -, e0, e1⟩ := idx_facts t
  refine funext fun (y : S4000x7.Idx) => ?_
  obtain ⟨r, q, rfl⟩ : ∃ (r : Fin 4000) (q : Fin 7), y = ix2 r q := ⟨y 0, y 1, eq_ix2 (n0 := 4000) (n1 := 7) y⟩
  show k0_pay3 (F := Ideal) (iblk m c 0 t) (iblk m c 1 t) (iblk m c 2 t) (iblk m c 3 t) (iblk m c 4 t) (iblk m c 5 t)
      (iblk m c 6 t) (ix2 r q) = eTildeArr m c (((cfg0.win 8).blk t).view.emb (ix2 r q))
  have he : ((cfg0.win 8).blk t).view.emb (ix2 r q) = (ix2 (edgeOf t r) q : S4000000x7.Idx) := by
    funext d
    apply Fin.ext
    match d with
    | ⟨0, _⟩ => show win0_8.index t (0 : Fin 2) * 4000 + 1 * r.val = t.val * 4000 + r.val; rw [e0]; omega
    | ⟨1, _⟩ => show win0_8.index t (1 : Fin 2) * 7 + 1 * q.val = q.val; rw [e1]; omega
  rw [he]
  refine (pay3_apply (iblk m c 0 t) (iblk m c 1 t) (iblk m c 2 t) (iblk m c 3 t) (iblk m c 4 t) (iblk m c 5 t)
    (iblk m c 6 t) r q).trans ?_
  show joined (row (n := 4000) (iblk m c 0 t) r) _ q = joined (row (n := 4000000) (xsArr m c) (edgeOf t r)) _ q
  rw [edgeOut_blk m c t r, blk0 m c t r]

/-- An entry of the second result array is in point `t`'s block iff each coordinate is in the block's range. -/
theorem mem_blk8 (t : Fin cfg0.N) (i : S4000000x7.Idx) :
    i ∈ ((cfg0.win 8).blk t).view.set ↔ ∀ a : Fin 2, win0_8.index t a * S4000x7.size a ≤ (i a).val
      ∧ (i a).val < win0_8.index t a * S4000x7.size a + S4000x7.size a := by
  show i ∈ ((View.whole main_v18_1).slice (win0_8.rect t)).set ↔ _
  rw [View.set_slice_whole, Rect.mem_set_unit]
  exact Iff.rfl

/-- Every entry of the second result array is in the block of the point its row belongs to. -/
theorem cover8 (i : S4000000x7.Idx) :
    ∃ t : Fin cfg0.N, (cfg0.win 8).flush t = true ∧ i ∈ ((cfg0.win 8).blk t).view.set := by
  have hi0 : (i 0).val < 4000000 := (i 0).isLt
  have hi1 : (i 1).val < 7 := (i 1).isLt
  have hq : (i 0).val / 4000 < 1000 := by omega
  obtain ⟨-, -, -, -, -, -, -, -, -, -, -, -, -, -, -, -, e0, e1⟩ := idx_facts ⟨(i 0).val / 4000, hq⟩
  refine ⟨⟨(i 0).val / 4000, hq⟩, flush0_8 _, ?_⟩
  rw [mem_blk8]
  intro a
  match a with
  | ⟨0, _⟩ =>
    show win0_8.index ⟨(i 0).val / 4000, hq⟩ (0 : Fin 2) * 4000 ≤ (i 0).val
      ∧ (i 0).val < win0_8.index ⟨(i 0).val / 4000, hq⟩ (0 : Fin 2) * 4000 + 4000
    rw [e0]
    show (i 0).val / 4000 * 4000 ≤ (i 0).val ∧ (i 0).val < (i 0).val / 4000 * 4000 + 4000
    omega
  | ⟨1, _⟩ =>
    show win0_8.index ⟨(i 0).val / 4000, hq⟩ (1 : Fin 2) * 7 ≤ (i 1).val
      ∧ (i 1).val < win0_8.index ⟨(i 0).val / 4000, hq⟩ (1 : Fin 2) * 7 + 7
    rw [e1]
    omega

/-- The second result array after the run. -/
theorem final8 (c : Dev nD) : (dats m 0 c).arrAt 8 cfg0.N = eTildeArr m c :=
  (dats m 0 c).arrAt_eq_of_cover 8 (eTildeArr m c) (fun t _ => flushed8_eq m c t) cover8

end Cert.KernelIdeal.ArrayValue

end
-- ==== Proof.RefValue.lean ====
/-
  The reference, read row by row.

  The reference gathers the source and destination rows, joins them with the edge features into a 4 000 000 × 10
  array, multiplies by the transposed first weight matrix, adds the first bias broadcast over the rows, clamps at
  zero, multiplies by the transposed second weight matrix and adds the second bias; its second result joins the
  gathered source rows with the first result.  Every stage after the gathers and the transposes acts on each row by
  itself, so entry (e, o) of the first result is output unit `o` of edge `e` and the results are `wOut` and
  `eTilde` of the gathered rows, the edge features, the transposed matrices and the biases.
-/
import proofs.«143633_j81226421502274_1_alg».proof.Proof.Gen.ReferenceIdeal.Read
import proofs.«143633_j81226421502274_1_alg».proof.Proof.EdgeMlp
import proofs.«143633_j81226421502274_1_alg».proof.Proof.LibMatmulPlain

noncomputable section

namespace Cert.ReferenceIdeal.RefValue

open Cert.ReferenceIdeal Cert.ReferenceIdeal.Gen Cert.ReferenceIdeal.Read Idealize.ShloMosaic Idealize.ShloMosaic.ValueIdx
open Cert.EdgeMlp Cert.Gcn

variable (x0 : (⟨S250000x3, .f32⟩ : BufTy).Contents (Elt Ideal)) (x1 : (⟨S4000000x4, .f32⟩ : BufTy).Contents (Elt Ideal))
  (x2 : (⟨S40x10, .f32⟩ : BufTy).Contents (Elt Ideal)) (x3 : (⟨S40, .f32⟩ : BufTy).Contents (Elt Ideal))
  (x4 : (⟨S4x40, .f32⟩ : BufTy).Contents (Elt Ideal)) (x5 : (⟨S4, .f32⟩ : BufTy).Contents (Elt Ideal))
  (x6 x7 : (⟨S4000000, .i32⟩ : BufTy).Contents (Elt Ideal))

/-- Entry (e, j) of the clamped hidden stage is hidden unit `j` of edge `e`. -/
theorem hidden_apply (e : Fin 4000000) (j : Fin 40) :
    val_main_v20 (F := Ideal) x0 x1 x2 x3 x6 x7 (ix2 e j)
      = hiddenUnit (row (n := 4000000) (val_main_v6 (F := Ideal) x0 x6) e) (row (n := 4000000) (val_main_v13 (F := Ideal) x0 x7) e)
          (row (n := 4000000) x1 e) (val_main_v15 (F := Ideal) x2) (fun j => x3 (ix1 j)) j := by
  unfold val_main_v20 val_main_v19 val_main_v16 val_main_v14 val_main_v18 val_main_v17 val_main_call0_v0
    val_main_call0_cst hiddenUnit
  rw [maximumf_apply, addf_apply]
  refine congrArg₂ max (congrArg₂ (· + ·) ?_ ?_) ?_
  · refine (dotGeneral_plain_apply dot_S4000000x10_S10x40_S4000000x40_1_0_0_1_n_n ⟨rfl, rfl, rfl, rfl, rfl, rfl⟩ none _ _ e j).trans ?_
    refine Finset.sum_congr rfl fun l _ => ?_
    exact congrArg (· * val_main_v15 (F := Ideal) x2 (ix2 l j))
      (concat3_apply (n := 4000000) (val_main_v6 (F := Ideal) x0 x6) (val_main_v13 (F := Ideal) x0 x7) x1 _ e l)
  · refine (broadcastInDim_apply _ bcast_S1x40_S4000000x40_0_1 _ (ix2 e j) (ix2 0 j) ?_).trans
      (broadcastInDim_apply _ bcast_S40_S1x40_1 x3 (ix2 0 j) (ix1 j) ?_)
    · intro a
      match a with
      | ⟨0, _⟩ => rfl
      | ⟨1, _⟩ => rfl
    · intro a
      match a with
      | ⟨0, _⟩ => rfl
  · exact broadcastInDim_apply _ bcast_S_S4000000x40 (constant (F := Ideal) S_ .f32 0x00000000#32) (ix2 e j)
      (fun a => a.elim0) (fun a => a.elim0)

/-- The first result is `wOut` of the gathered rows, the edge features, the transposed matrices and the biases. -/
theorem wOut_eq :
    val_main_v25 (F := Ideal) x0 x1 x2 x3 x4 x5 x6 x7
      = wOut (n := 4000000) (val_main_v6 (F := Ideal) x0 x6) (val_main_v13 (F := Ideal) x0 x7) x1
          (val_main_v15 (F := Ideal) x2) (fun j => x3 (ix1 j)) (val_main_v21 (F := Ideal) x4) (fun q => x5 (ix1 q)) := by
  funext i
  obtain ⟨e, o, rfl⟩ : ∃ (e : Fin 4000000) (o : Fin 4), i = ix2 e o := ⟨i 0, i 1, eq_ix2 (n0 := 4000000) (n1 := 4) i⟩
  show val_main_v25 (F := Ideal) x0 x1 x2 x3 x4 x5 x6 x7 (ix2 e o)
    = edgeOut (row (n := 4000000) (val_main_v6 (F := Ideal) x0 x6) e) (row (n := 4000000) (val_main_v13 (F := Ideal) x0 x7) e)
        (row (n := 4000000) x1 e) (val_main_v15 (F := Ideal) x2) (fun j => x3 (ix1 j)) (val_main_v21 (F := Ideal) x4)
        (fun q => x5 (ix1 q)) o
  unfold val_main_v25 val_main_v22 val_main_v24 val_main_v23 edgeOut
  rw [addf_apply]
  refine congrArg₂ (· + ·) ?_ ?_
  · refine (dotGeneral_plain_apply dot_S4000000x40_S40x4_S4000000x4_1_0_0_1_n_n ⟨rfl, rfl, rfl, rfl, rfl, rfl⟩ none _ _ e o).trans ?_
    refine Finset.sum_congr rfl fun j _ => ?_
    rw [hidden_apply]
  · refine (broadcastInDim_apply _ bcast_S1x4_S4000000x4_0_1 _ (ix2 e o) (ix2 0 o) ?_).trans
      (broadcastInDim_apply _ bcast_S4_S1x4_1 x5 (ix2 0 o) (ix1 o) ?_)
    · intro a
      match a with
      | ⟨0, _⟩ => rfl
      | ⟨1, _⟩ => rfl
    · intro a
      match a with
      | ⟨0, _⟩ => rfl

/-- The second result is `eTilde` of the same arrays. -/
theorem eTilde_eq :
    val_main_v26 (F := Ideal) x0 x1 x2 x3 x4 x5 x6 x7
      = eTilde (n := 4000000) (val_main_v6 (F := Ideal) x0 x6) (val_main_v13 (F := Ideal) x0 x7) x1
          (val_main_v15 (F := Ideal) x2) (fun j => x3 (ix1 j)) (val_main_v21 (F := Ideal) x4) (fun q => x5 (ix1 q)) := by
  funext i
  obtain ⟨e, q, rfl⟩ : ∃ (e : Fin 4000000) (q : Fin 7), i = ix2 e q := ⟨i 0, i 1, eq_ix2 (n0 := 4000000) (n1 := 7) i⟩
  unfold val_main_v26
  refine (concat2_apply (n := 4000000) (val_main_v6 (F := Ideal) x0 x6) (val_main_v25 (F := Ideal) x0 x1 x2 x3 x4 x5 x6 x7) _ e q).trans ?_
  rw [wOut_eq]
  rfl

end Cert.ReferenceIdeal.RefValue

end
-- ==== Proof.Stages.lean ====
/-
  The kernel's host operations before the region, and where the two programs meet.

  Before the kernel region the host gathers the source and destination rows (negative indices wrapped once, then the
  gather), transposes the two weight matrices and reshapes the two biases to one-row arrays; the edge features go in
  as they are.  The reference computes the same gathers and transposes by the same operations, so each region-entry
  array is the reference's stage of the same arguments, and a bias row read at (0, j) is the bias at j.  Hence the
  kernel's two result functions are `wOut` and `eTilde` of exactly the arrays the reference's results are.
-/
import proofs.«143633_j81226421502274_1_alg».proof.Proof.ArrayValue
import proofs.«143633_j81226421502274_1_alg».proof.Proof.RefValue
import Idealize.ShloMosaic.Lib.StableHlo.Run

noncomputable section

namespace Cert.KernelIdeal.Stages

open Cert.KernelIdeal Cert.KernelIdeal.Gen Idealize.ShloMosaic Idealize.ShloMosaic.TcCoe Idealize.SL.Sem
open Idealize.ShloMosaic.ValueIdx Idealize.ShloMosaic.StableHlo
open Cert.EdgeMlp Cert.KernelIdeal.ArrayValue

variable (m : (ℓ : Loc nD τ sig) → Buf (Elt Ideal) ℓ)

/-- The gathered source rows are the reference's gather stage of the node table and the source indices. -/
theorem xs_stage (c : Dev nD) :
    xsArr m c = Cert.ReferenceIdeal.Read.val_main_v6 (F := Ideal) (m ((c : Thread nD τ).loc main_arg0))
      (m ((c : Thread nD τ).loc main_arg6)) := by
  dsimp only [xsArr, V, hostOps0]
  after_results
  rfl

/-- The gathered destination rows are the reference's gather stage of the node table and the destination indices. -/
theorem xd_stage (c : Dev nD) :
    xdArr m c = Cert.ReferenceIdeal.Read.val_main_v13 (F := Ideal) (m ((c : Thread nD τ).loc main_arg0))
      (m ((c : Thread nD τ).loc main_arg7)) := by
  dsimp only [xdArr, V, hostOps0]
  after_results
  rfl

/-- The edge features reach the region as launched. -/
theorem w_stage (c : Dev nD) : wArr m c = m ((c : Thread nD τ).loc main_arg1) := V_main_arg1 m c

/-- The first weight matrix reaches the region transposed, as the reference transposes it. -/
theorem w1_stage (c : Dev nD) :
    w1Arr m c = Cert.ReferenceIdeal.Read.val_main_v15 (F := Ideal) (m ((c : Thread nD τ).loc main_arg2)) := by
  dsimp only [w1Arr, V, hostOps0]
  after_results
  rfl

/-- The second weight matrix reaches the region transposed, as the reference transposes it. -/
theorem w2_stage (c : Dev nD) :
    w2Arr m c = Cert.ReferenceIdeal.Read.val_main_v21 (F := Ideal) (m ((c : Thread nD τ).loc main_arg4)) := by
  dsimp only [w2Arr, V, hostOps0]
  after_results
  rfl

/-- The first bias reaches the region as a 1 × 40 row: its entry (0, j) is the bias at j. -/
theorem b1_stage (c : Dev nD) :
    (fun j : Fin 40 => b1Arr m c (ix2 0 j))
      = fun j : Fin 40 => (m ((c : Thread nD τ).loc main_arg3) : S40.Idx → EReal) (ix1 j) := by
  have e : b1Arr m c = shapeCast S1x40 (m ((c : Thread nD τ).loc main_arg3) : S40.Idx → EReal) shapeCasts_S40_S1x40 := by
    dsimp only [b1Arr, V, hostOps0]
    after_results
    rfl
  funext j
  rw [e]
  refine shapeCast_apply _ shapeCasts_S40_S1x40 (ix2 0 j) (ix1 j) ?_
  rw [Shape.rowMajor_val_one, Shape.rowMajor_val_two]
  show j.val = 0 * 40 + j.val
  omega

/-- The second bias reaches the region as a 1 × 4 row: its entry (0, q) is the bias at q. -/
theorem b2_stage (c : Dev nD) :
    (fun q : Fin 4 => b2Arr m c (ix2 0 q))
      = fun q : Fin 4 => (m ((c : Thread nD τ).loc main_arg5) : S4.Idx → EReal) (ix1 q) := by
  have e : b2Arr m c = shapeCast S1x4 (m ((c : Thread nD τ).loc main_arg5) : S4.Idx → EReal) shapeCasts_S4_S1x4 := by
    dsimp only [b2Arr, V, hostOps0]
    after_results
    rfl
  funext q
  rw [e]
  refine shapeCast_apply _ shapeCasts_S4_S1x4 (ix2 0 q) (ix1 q) ?_
  rw [Shape.rowMajor_val_one, Shape.rowMajor_val_two]
  show q.val = 0 * 4 + q.val
  omega

open Cert.ReferenceIdeal.Read in
/-- The reference's first result, of arguments equal to the kernel's, is the kernel's first result function. -/
theorem wOut_meet (c : Dev nD)
    (y0 : (⟨Cert.ReferenceIdeal.S250000x3, .f32⟩ : BufTy).Contents (Elt Ideal))
    (y1 : (⟨Cert.ReferenceIdeal.S4000000x4, .f32⟩ : BufTy).Contents (Elt Ideal))
    (y2 : (⟨Cert.ReferenceIdeal.S40x10, .f32⟩ : BufTy).Contents (Elt Ideal))
    (y3 : (⟨Cert.ReferenceIdeal.S40, .f32⟩ : BufTy).Contents (Elt Ideal))
    (y4 : (⟨Cert.ReferenceIdeal.S4x40, .f32⟩ : BufTy).Contents (Elt Ideal))
    (y5 : (⟨Cert.ReferenceIdeal.S4, .f32⟩ : BufTy).Contents (Elt Ideal))
    (y6 y7 : (⟨Cert.ReferenceIdeal.S4000000, .i32⟩ : BufTy).Contents (Elt Ideal))
    (h0 : y0 = m ((c : Thread nD τ).loc main_arg0)) (h1 : y1 = m ((c : Thread nD τ).loc main_arg1))
    (h2 : y2 = m ((c : Thread nD τ).loc main_arg2)) (h3 : y3 = m ((c : Thread nD τ).loc main_arg3))
    (h4 : y4 = m ((c : Thread nD τ).loc main_arg4)) (h5 : y5 = m ((c : Thread nD τ).loc main_arg5))
    (h6 : y6 = m ((c : Thread nD τ).loc main_arg6)) (h7 : y7 = m ((c : Thread nD τ).loc main_arg7)) :
    val_main_v25 (F := Ideal) y0 y1 y2 y3 y4 y5 y6 y7 = wOutArr m c := by
  subst h0 h1 h2 h3 h4 h5 h6 h7
  rw [Cert.ReferenceIdeal.RefValue.wOut_eq]
  unfold wOutArr
  rw [xs_stage, xd_stage, w_stage, w1_stage, w2_stage, b1_stage, b2_stage]

open Cert.ReferenceIdeal.Read in
/-- The reference's second result, of arguments equal to the kernel's, is the kernel's second result function. -/
theorem eTilde_meet (c : Dev nD)
    (y0 : (⟨Cert.ReferenceIdeal.S250000x3, .f32⟩ : BufTy).Contents (Elt Ideal))
    (y1 : (⟨Cert.ReferenceIdeal.S4000000x4, .f32⟩ : BufTy).Contents (Elt Ideal))
    (y2 : (⟨Cert.ReferenceIdeal.S40x10, .f32⟩ : BufTy).Contents (Elt Ideal))
    (y3 : (⟨Cert.ReferenceIdeal.S40, .f32⟩ : BufTy).Contents (Elt Ideal))
    (y4 : (⟨Cert.ReferenceIdeal.S4x40, .f32⟩ : BufTy).Contents (Elt Ideal))
    (y5 : (⟨Cert.ReferenceIdeal.S4, .f32⟩ : BufTy).Contents (Elt Ideal))
    (y6 y7 : (⟨Cert.ReferenceIdeal.S4000000, .i32⟩ : BufTy).Contents (Elt Ideal))
    (h0 : y0 = m ((c : Thread nD τ).loc main_arg0)) (h1 : y1 = m ((c : Thread nD τ).loc main_arg1))
    (h2 : y2 = m ((c : Thread nD τ).loc main_arg2)) (h3 : y3 = m ((c : Thread nD τ).loc main_arg3))
    (h4 : y4 = m ((c : Thread nD τ).loc main_arg4)) (h5 : y5 = m ((c : Thread nD τ).loc main_arg5))
    (h6 : y6 = m ((c : Thread nD τ).loc main_arg6)) (h7 : y7 = m ((c : Thread nD τ).loc main_arg7)) :
    val_main_v26 (F := Ideal) y0 y1 y2 y3 y4 y5 y6 y7 = eTildeArr m c := by
  subst h0 h1 h2 h3 h4 h5 h6 h7
  rw [Cert.ReferenceIdeal.RefValue.eTilde_eq]
  unfold eTildeArr
  rw [xs_stage, xd_stage, w_stage, w1_stage, w2_stage, b1_stage, b2_stage]

end Cert.KernelIdeal.Stages

end
-- ==== Proof.lean ====
/-
  The claim: an edge-message network over 4 000 000 edges, as a blocked kernel and as whole-array operations.

  Both programs gather each edge's source and destination node coordinates (three each) from a table of 250 000
  nodes, join them with the edge's own four features, and pass the ten numbers through a hidden layer of forty
  clamped units and an output layer of four; the second result joins the source coordinates with the four outputs.
  The kernel does the gathers, the transposes of the two weight matrices and the reshapes of the two biases on the
  host, then runs 1000 grid points of 4000 edges each; the reference does everything on whole arrays.

  On the extended reals the narrowing before each product is the identity, and a product into a zero accumulator and
  the host's product are the same sum over the contracted coordinate, so each row of a result is one function of the
  same row of the three per-edge arrays and of the parameters (`Cert.EdgeMlp`).  The kernel's 1000 blocks of rows
  tile both result arrays (`ArrayValue`), the reference's stages act row by row (`RefValue`), and the host stages
  before the kernel region are the reference's own (`Stages`): both programs end with the same two arrays.  No law
  that needs finite inputs is used.  The kernel has no rewritten operation, so its idealization is its own text.
-/
import proofs.«143633_j81226421502274_1_alg».proof.Defs
import proofs.«143633_j81226421502274_1_alg».proof.Proof.Gen.Kernel
import proofs.«143633_j81226421502274_1_alg».proof.Proof.Gen.Kernel.Skeleton
import proofs.«143633_j81226421502274_1_alg».proof.Proof.Gen.Kernel.Launch
import proofs.«143633_j81226421502274_1_alg».proof.Proof.Gen.Kernel.Points
import proofs.«143633_j81226421502274_1_alg».proof.Proof.Gen.Kernel.Frame
import proofs.«143633_j81226421502274_1_alg».proof.Proof.Gen.KernelIdeal
import proofs.«143633_j81226421502274_1_alg».proof.Proof.Gen.KernelIdeal.Skeleton
import proofs.«143633_j81226421502274_1_alg».proof.Proof.Gen.KernelIdeal.Launch
import proofs.«143633_j81226421502274_1_alg».proof.Proof.Gen.KernelIdeal.Points
import proofs.«143633_j81226421502274_1_alg».proof.Proof.Gen.KernelIdeal.Frame
import proofs.«143633_j81226421502274_1_alg».proof.Proof.Gen.ReferenceIdeal
import proofs.«143633_j81226421502274_1_alg».proof.Proof.Gen.Pre_finite_inputs
import proofs.«143633_j81226421502274_1_alg».proof.Proof.Gen.KernelIdeal.Value
import proofs.«143633_j81226421502274_1_alg».proof.Proof.Gen.ReferenceIdeal.Run
import proofs.«143633_j81226421502274_1_alg».proof.Proof.Gen.ReferenceIdeal.Read
import proofs.«143633_j81226421502274_1_alg».proof.Proof.Stages
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a sequence of host operations: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- No operation of the kernel was rewritten for the reading on the extended reals. -/
theorem preserves : Cert.preserves_Kernel_KernelIdeal := trivial

/-- From memories that agree on the arguments, both programs end with the per-edge outputs in the first result and
    the source coordinates joined with them in the second. -/
theorem algebraic : Cert.algebraic_KernelIdeal_ReferenceIdeal := by
  intro m ρ m' ρ' _ hagree
  refine ⟨fun c => Cert.KernelIdeal.ArrayValue.wOutArr m c, fun c => Cert.KernelIdeal.ArrayValue.eTildeArr m c, ?_, ?_⟩
  · exact (θ_run Cert.KernelIdeal.defs _ _).mono
      (fun r h c => ⟨(h c).1.trans (Cert.KernelIdeal.ArrayValue.final7 m c),
        (h c).2.1.trans (Cert.KernelIdeal.ArrayValue.final8 m c), (h c).2.2⟩)
      (Cert.KernelIdeal.Value.run_blocks m ρ)
  · refine (θ_run Cert.ReferenceIdeal.defs _ _).mono (fun r h c => ?_)
      (Cert.ReferenceIdeal.Value.run (F := Ideal) m' ρ')
    obtain ⟨h0, h1, h2, h3, h4, h5, h6, h7⟩ := hagree c
    exact ⟨(h c).1.trans (Cert.KernelIdeal.Stages.wOut_meet m c _ _ _ _ _ _ _ _ h0 h1 h2 h3 h4 h5 h6 h7),
      (h c).2.1.trans (Cert.KernelIdeal.Stages.eTilde_meet m c _ _ _ _ _ _ _ _ h0 h1 h2 h3 h4 h5 h6 h7),
      (h c).2.2⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
